-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x40 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 78
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .bf16⟩
  | .hbm, ⟨40, _⟩ => ⟨S100000x128, .bf16⟩
  | .hbm, ⟨41, _⟩ => ⟨S128x128, .bf16⟩
  | .hbm, ⟨42, _⟩ => ⟨S128x128, .bf16⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .bf16⟩
  | .hbm, ⟨71, _⟩ => ⟨S100000x128, .bf16⟩
  | .hbm, ⟨72, _⟩ => ⟨S128x128, .bf16⟩
  | .hbm, ⟨73, _⟩ => ⟨S128x128, .bf16⟩
  | .hbm, ⟨74, _⟩ => ⟨S1x128, .f32⟩
  | .hbm, ⟨75, _⟩ => ⟨S128x40, .bf16⟩
  | .hbm, ⟨76, _⟩ => ⟨S1x40, .f32⟩
  | .hbm, ⟨77, _⟩ => ⟨S100000x40, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S128x40, .bf16⟩
  | .local _ .vmem, ⟨17, _⟩ => ⟨S1x40, .f32⟩
  | .local _ .vmem, ⟨18, _⟩ => ⟨S4000x40, .f32⟩
  | .local _ .vmem, ⟨19, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x40 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x40.size a ≤ S128x40.size a
  hwx1_5 : ∀ i : grid1.Coords, EltTy.bits .bf16 = 32 ∨ (Rect.block (s := S128x40) S128x40.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x40.size a ≤ S1x40.size a
  hwx1_6 : ∀ i : grid1.Coords, EltTy.bits .f32 = 32 ∨ (Rect.block (s := S1x40) S1x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x40.size a ≤ S100000x40.size a
  hwx1_7 : ∀ i : grid1.Coords, EltTy.bits .f32 = 32 ∨ (Rect.block (s := S100000x40) S4000x40.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_v23) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S128x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S4000x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x40, .f32⟩
  | .hbm, ⟨83, _⟩ => ⟨S1x40, .f32⟩
  | .hbm, ⟨84, _⟩ => ⟨S100000x40, .f32⟩
  | .hbm, ⟨85, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.SageSpec.lean ====
/- The mathematics both programs compute, entry by entry, over the extended reals.

   One graph layer takes a feature matrix X and its neighbour means Xn (both n x 128), two 128 x 128 weight
   matrices and a bias row, and returns max (X Ws + Xn Wn + b) 0. The classifier head is H Wc + bc.
   Nothing here depends on how rows are grouped into blocks: entry (r, q) reads row r of X and Xn only. -/
import Idealize.ShloMosaic.Lib.ValueIdx
import Idealize.ShloMosaic.PureOps.Ideal.Laws

noncomputable section

open scoped BigOperators

namespace Cert.Sage

open Idealize.ShloMosaic Idealize.ShloMosaic.ValueIdx

/-- An r x c matrix of extended reals. -/
abbrev Mat (r c : Nat) : Type := (⟨2, ![r, c]⟩ : Shape).Idx → EReal
/-- A vector of c extended reals. -/
abbrev Row (c : Nat) : Type := (⟨1, ![c]⟩ : Shape).Idx → EReal

/-- Entry (r, q) of max (X Ws + Xn Wn + b) 0, from row r of X and of Xn. -/
def layerAt {n : Nat} (X Xn : Mat n 128) (Ws Wn : Mat 128 128) (b : Fin 128 → EReal) (r : Fin n) (q : Fin 128) : EReal :=
  max ((∑ k : Fin 128, X (ix2 r k) * Ws (ix2 k q)) + (∑ k : Fin 128, Xn (ix2 r k) * Wn (ix2 k q)) + b q) 0

/-- The layer as a matrix. -/
def layer {n : Nat} (X Xn : Mat n 128) (Ws Wn : Mat 128 128) (b : Fin 128 → EReal) : Mat n 128 :=
  fun i => layerAt X Xn Ws Wn b (i 0) (i 1)

theorem layer_apply {n : Nat} (X Xn : Mat n 128) (Ws Wn : Mat 128 128) (b : Fin 128 → EReal) (r : Fin n) (q : Fin 128) :
    layer X Xn Ws Wn b (ix2 r q) = layerAt X Xn Ws Wn b r q := rfl

/-- Entry (r, q) of H Wc + bc. -/
def headAt {n : Nat} (H : Mat n 128) (Wc : Mat 128 40) (bc : Fin 40 → EReal) (r : Fin n) (q : Fin 40) : EReal :=
  (∑ k : Fin 128, H (ix2 r k) * Wc (ix2 k q)) + bc q

/-- The classifier head as a matrix. -/
def head {n : Nat} (H : Mat n 128) (Wc : Mat 128 40) (bc : Fin 40 → EReal) : Mat n 40 :=
  fun i => headAt H Wc bc (i 0) (i 1)

theorem head_apply {n : Nat} (H : Mat n 128) (Wc : Mat 128 40) (bc : Fin 40 → EReal) (r : Fin n) (q : Fin 40) :
    head H Wc bc (ix2 r q) = headAt H Wc bc r q := rfl

end Cert.Sage

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.KRegion0.lean ====
/- The first pallas region of the kernel's program: what its output array holds when the region ends.

   The region walks 25 blocks of 4000 node rows. At a block the body multiplies the block's rows of the features
   and of the neighbour means by the two whole weight matrices, adds the two products and the bias row, and clamps
   at zero. An entry of the output therefore depends on its own row only, so the 25 written blocks are the 25
   row ranges of ONE matrix, max (X Ws + Xn Wn + b) 0 over all 100000 rows, and together they cover it. -/
import proofs.«170081_j52123723104477_1_alg».proof.Proof.Gen.KernelIdeal.Frame
import proofs.«170081_j52123723104477_1_alg».proof.Proof.SageSpec
import proofs.«170081_j52123723104477_1_alg».proof.Proof.LibDotRead
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx Cert.Sage
open Idealize.ShloMosaic.Pipeline (Dat Cfg Window)

/-- A 4000 x 128 by 128 x 128 product into a zero accumulator, at entry (p, q): the sum over the 128 hidden coordinates. -/
theorem matmul_at (A : FVec Ideal S4000x128 .bf16) (B : FVec Ideal S128x128 .bf16) (p : Fin 4000) (q : Fin 128) :
    (matmul (F := Ideal) dot_S4000x128_S128x128_S4000x128_1_0_0_1_n_n none A B (constant (F := Ideal) S4000x128 .f32 0x00000000#32) (ix2 p q) : EReal)
      = ∑ k : Fin 128, (A (ix2 p k) : EReal) * (B (ix2 k q) : EReal) := by
  simp only [matmul]
  rw [Ideal.matmul_constant_zero_apply]
  exact Cert.DotRead.sum_contr_plain dot_S4000x128_S128x128_S4000x128_1_0_0_1_n_n.wf A B p q

/-- The bias row spread over the 4000 rows of a block, at entry (p, q), is the bias at q. -/
theorem bias_at (b : Vec Ideal S1x128 .f32) (p : Fin 4000) (q : Fin 128) :
    (broadcastTo S4000x128 b broadcasts_S1x128_S4000x128 (ix2 p q) : EReal) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's stored value at entry (p, q) of a block, from the loaded blocks. -/
theorem pay_at (x0 x1 : Vec Ideal S4000x128 .bf16) (x2 x3 : Vec Ideal S128x128 .bf16) (x4 : Vec Ideal S1x128 .f32)
    (p : Fin 4000) (q : Fin 128) :
    (k0_pay1 (F := Ideal) x0 x2 x1 x3 x4 (ix2 p q) : EReal) = layerAt x0 x1 x2 x3 (fun j => x4 (ix2 (0 : Fin 1) j)) p q := by
  unfold k0_pay1 layerAt
  simp only [shapeCast_self]
  show max (((matmul (F := Ideal) dot_S4000x128_S128x128_S4000x128_1_0_0_1_n_n none x0 x2 (constant (F := Ideal) S4000x128 .f32 0x00000000#32) (ix2 p q) : EReal)
      + (matmul (F := Ideal) dot_S4000x128_S128x128_S4000x128_1_0_0_1_n_n none x1 x3 (constant (F := Ideal) S4000x128 .f32 0x00000000#32) (ix2 p q) : EReal))
      + (broadcastTo S4000x128 x4 broadcasts_S1x128_S4000x128 (ix2 p q) : EReal)) (Ideal.ofBits .f32 0x00000000#32) = _
  rw [matmul_at, matmul_at, bias_at, Ideal.ofBits_zero_f32]

/-! ## From the blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The block index maps over the 25 grid points: the two row-blocked inputs move with the output, the weights and
    the bias stay at block (0, 0), and the output's blocks are the 25 row ranges. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every one of the 25 row ranges is some point's output block. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- What point `t` writes back is its row range of the layer over all rows. -/
theorem flushed_eq (c : Dev nD) (t : Fin cfg0.N) :
    (dat0 V c).flushed 5 t = ((cfg0.win 5).blk t).view.read (Elt Ideal)
      (layer (V c main_v23) (V c main_v24) (V c main_v25) (V c main_v26) (fun q => V c main_v27 (ix2 (0 : Fin 1) q))) := by
  show (cfg0.win 5).cut (grid0.coords t) ((dat0 V c).after 5 t) = _
  rw [after0_5]
  unfold out0_5
  rw [View.canon_unit_zero zero_off]
  simp only [View.ld_unit_zero (S := S4000x128) zero_off, View.ld_unit_zero (S := S128x128) zero_off, View.ld_unit_zero (S := S1x128) zero_off]
  obtain ⟨e00, e01, e10, e11, e20, e21, e30, e31, e40, e41, e51, e50⟩ := idx_facts t
  funext j
  obtain ⟨p, q, rfl⟩ : ∃ (p : Fin 4000) (q : Fin 128), j = ix2 p q := ⟨j 0, j 1, eq_ix2 j⟩
  obtain ⟨R, hR⟩ : ∃ R : Fin 100000, R.val = win0_5.index t (0 : Fin 2) * 4000 + p.val :=
    ⟨⟨win0_5.index t (0 : Fin 2) * 4000 + p.val, by have := p.isLt; omega⟩, rfl⟩
  have hemb : ((cfg0.win 5).blk t).view.emb (ix2 p q) = ix2 R q := funext fun a => Fin.ext (by
    match a with
    | ⟨0, _⟩ => show win0_5.index t (0 : Fin 2) * 4000 + 1 * p.val = R.val; omega
    | ⟨1, _⟩ => show win0_5.index t (1 : Fin 2) * 128 + 1 * q.val = q.val; omega)
  show (k0_pay1 (F := Ideal) (iblk0 V c 0 t) (iblk0 V c 2 t) (iblk0 V c 1 t) (iblk0 V c 3 t) (iblk0 V c 4 t) (ix2 p q) : EReal)
      = layer (V c main_v23) (V c main_v24) (V c main_v25) (V c main_v26) (fun q => V c main_v27 (ix2 (0 : Fin 1) q))
          (((cfg0.win 5).blk t).view.emb (ix2 p q))
  rw [hemb, layer_apply]
  refine (pay_at (iblk0 V c 0 t) (iblk0 V c 1 t) (iblk0 V c 2 t) (iblk0 V c 3 t) (iblk0 V c 4 t) p q).trans ?_
  have h0 : ∀ k : Fin 128, (iblk0 V c 0 t (ix2 p k) : EReal) = V c main_v23 (ix2 R k) := fun k => by
    show V c main_v23 (((cfg0.win 0).blk t).view.emb (ix2 p k)) = V c main_v23 (ix2 R k)
    refine congrArg (V c main_v23) (funext fun a => Fin.ext ?_)
    match a with
    | ⟨0, _⟩ => show win0_0.index t (0 : Fin 2) * 4000 + 1 * p.val = R.val; omega
    | ⟨1, _⟩ => show win0_0.index t (1 : Fin 2) * 128 + 1 * k.val = k.val; omega
  have h1 : ∀ k : Fin 128, (iblk0 V c 1 t (ix2 p k) : EReal) = V c main_v24 (ix2 R k) := fun k => by
    show V c main_v24 (((cfg0.win 1).blk t).view.emb (ix2 p k)) = V c main_v24 (ix2 R k)
    refine congrArg (V c main_v24) (funext fun a => Fin.ext ?_)
    match a with
    | ⟨0, _⟩ => show win0_1.index t (0 : Fin 2) * 4000 + 1 * p.val = R.val; omega
    | ⟨1, _⟩ => show win0_1.index t (1 : Fin 2) * 128 + 1 * k.val = k.val; omega
  have h2 : ∀ k : Fin 128, (iblk0 V c 2 t (ix2 k q) : EReal) = V c main_v25 (ix2 k q) := fun k => by
    show V c main_v25 (((cfg0.win 2).blk t).view.emb (ix2 k q)) = V c main_v25 (ix2 k q)
    refine congrArg (V c main_v25) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have h3 : ∀ k : Fin 128, (iblk0 V c 3 t (ix2 k q) : EReal) = V c main_v26 (ix2 k q) := fun k => by
    show V c main_v26 (((cfg0.win 3).blk t).view.emb (ix2 k q)) = V c main_v26 (ix2 k q)
    refine congrArg (V c main_v26) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have h4 : (iblk0 V c 4 t (ix2 (0 : Fin 1) q) : EReal) = V c main_v27 (ix2 (0 : Fin 1) q) := by
    show V c main_v27 (((cfg0.win 4).blk t).view.emb (ix2 (0 : Fin 1) q)) = V c main_v27 (ix2 (0 : Fin 1) q)
    refine congrArg (V c main_v27) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  unfold layerAt
  simp only [h0, h1, h2, h3, h4]

/-- An index of the output array lies in point `t`'s block iff each coordinate is in the block's range. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v28).slice (win0_5.rect t)).set ↔ _
  rw [View.set_slice_whole, Rect.mem_set_unit]
  exact Iff.rfl

/-- The 25 output blocks cover all 100000 rows. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- When the region ends its output array holds the layer of its input arrays, all 100000 rows of it. -/
theorem value (c : Dev nD) :
    (dat0 V c).arrAt 5 cfg0.N
      = layer (V c main_v23) (V c main_v24) (V c main_v25) (V c main_v26) (fun q => V c main_v27 (ix2 (0 : Fin 1) q)) :=
  (dat0 V c).arrAt_eq_of_cover 5 _ (fun t _ => flushed_eq V c t) covered

end Cert.KernelIdeal.Region0

end
-- ==== Proof.KRegion1.lean ====
/- The second pallas region of the kernel's program: what its output array holds when the region ends.

   Again 25 blocks of 4000 node rows. At a block the body forms the same layer as the first region, max (H Ws +
   Hn Wn + b) 0, on the block's rows of the hidden features and of their neighbour means, then multiplies the
   result by the 128 x 40 classifier matrix and adds the classifier bias. Each output entry depends on its own
   row only, so the 25 written blocks are the row ranges of ONE matrix, (layer H Hn Ws Wn b) Wc + bc, and cover it. -/
import proofs.«170081_j52123723104477_1_alg».proof.Proof.KRegion0

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx Cert.Sage
open Idealize.ShloMosaic.Pipeline (Dat Cfg Window)

/-- A 4000 x 128 by 128 x 40 product into a zero accumulator, at entry (p, q): the sum over the 128 hidden coordinates. -/
theorem matmul_at (A : FVec Ideal S4000x128 .bf16) (B : FVec Ideal S128x40 .bf16) (p : Fin 4000) (q : Fin 40) :
    (matmul (F := Ideal) dot_S4000x128_S128x40_S4000x40_1_0_0_1_n_n none A B (constant (F := Ideal) S4000x40 .f32 0x00000000#32) (ix2 p q) : EReal)
      = ∑ k : Fin 128, (A (ix2 p k) : EReal) * (B (ix2 k q) : EReal) := by
  simp only [matmul]
  rw [Ideal.matmul_constant_zero_apply]
  exact Cert.DotRead.sum_contr_plain dot_S4000x128_S128x40_S4000x40_1_0_0_1_n_n.wf A B p q

/-- The classifier bias spread over the 4000 rows of a block, at entry (p, q), is the bias at q. -/
theorem bias_at (b : Vec Ideal S1x40 .f32) (p : Fin 4000) (q : Fin 40) :
    (broadcastTo S4000x40 b broadcasts_S1x40_S4000x40 (ix2 p q) : EReal) = b (ix2 (0 : Fin 1) q) :=
  broadcastTo_apply b broadcasts_S1x40_S4000x40 (ix2 p q) (ix2 (0 : Fin 1) q) (fun a => match a with
    | ⟨0, _⟩ => by show 0 = if (1 : Nat) = 1 then 0 else _; rw [if_pos rfl]
    | ⟨1, _⟩ => by show q.val = if (40 : Nat) = 1 then 0 else q.val; rw [if_neg (by decide)])

/-- The second body is the first body's value, narrowed, times the classifier matrix, plus the classifier bias. -/
theorem body_eq (x0 x1 : Vec Ideal S4000x128 .bf16) (x2 x3 : Vec Ideal S128x128 .bf16) (x4 : Vec Ideal S1x128 .f32)
    (x5 : Vec Ideal S128x40 .bf16) (x6 : Vec Ideal S1x40 .f32) :
    k1_pay1 (F := Ideal) x0 x2 x1 x3 x4 x5 x6
      = addf (F := Ideal) (φ := .f32)
          (matmul (F := Ideal) (φ₁ := .bf16) (φ₂ := .bf16) dot_S4000x128_S128x40_S4000x40_1_0_0_1_n_n none
            (truncf (F := Ideal) .bf16 (k0_pay1 (F := Ideal) x0 x2 x1 x3 x4) bitsLt_bf16_f32) (shapeCast (α := Ideal .bf16) S128x40 x5 shapeCasts_S128x40_S128x40)
            (constant (F := Ideal) S4000x40 .f32 0x00000000#32))
          (broadcastTo S4000x40 (shapeCast (α := Ideal .f32) S1x40 x6 shapeCasts_S1x40_S1x40) broadcasts_S1x40_S4000x40) := rfl

/-- The body's stored value at entry (p, q) of a block: the head applied to the layer of the loaded blocks. -/
theorem pay_at (x0 x1 : Vec Ideal S4000x128 .bf16) (x2 x3 : Vec Ideal S128x128 .bf16) (x4 : Vec Ideal S1x128 .f32)
    (x5 : Vec Ideal S128x40 .bf16) (x6 : Vec Ideal S1x40 .f32) (p : Fin 4000) (q : Fin 40) :
    (k1_pay1 (F := Ideal) x0 x2 x1 x3 x4 x5 x6 (ix2 p q) : EReal)
      = headAt (layer x0 x1 x2 x3 (fun j => x4 (ix2 (0 : Fin 1) j))) x5 (fun j => x6 (ix2 (0 : Fin 1) j)) p q := by
  rw [body_eq]
  unfold headAt
  show ((matmul (F := Ideal) (φ₁ := .bf16) (φ₂ := .bf16) dot_S4000x128_S128x40_S4000x40_1_0_0_1_n_n none
        (truncf (F := Ideal) .bf16 (k0_pay1 (F := Ideal) x0 x2 x1 x3 x4) bitsLt_bf16_f32) (shapeCast (α := Ideal .bf16) S128x40 x5 shapeCasts_S128x40_S128x40)
        (constant (F := Ideal) S4000x40 .f32 0x00000000#32) (ix2 p q) : EReal)
      + (broadcastTo S4000x40 (shapeCast (α := Ideal .f32) S1x40 x6 shapeCasts_S1x40_S1x40) broadcasts_S1x40_S4000x40 (ix2 p q) : EReal)) = _
  rw [shapeCast_self, shapeCast_self, matmul_at, bias_at]
  refine congrArg (· + (x6 (ix2 (0 : Fin 1) q) : EReal)) (Finset.sum_congr rfl fun k _ => ?_)
  show (k0_pay1 (F := Ideal) x0 x2 x1 x3 x4 (ix2 p k) : EReal) * _ = layerAt x0 x1 x2 x3 (fun j => x4 (ix2 (0 : Fin 1) j)) p k * _
  rw [Region0.pay_at]

/-! ## From the blocks to the array -/

variable (V : (c : Dev nD) → (b : Ref sig .tc) → Buf (Elt Ideal) ((c : Thread nD τ).loc b))

/-- The block index maps over the 25 grid points: the two row-blocked inputs move with the output, the weights and
    the biases stay at block (0, 0), and the output's blocks are the 25 row ranges. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 24 :=
  (by decide +kernel : ∀ t : Fin grid1.N, _)

/-- Every one of the 25 row ranges is some point's output block. -/
theorem idx_onto : ∀ q0 : Fin 25, ∃ t : Fin cfg1.N, win1_7.index t = ![q0.val, 0] :=
  (by decide +kernel : ∀ q0 : Fin 25, ∃ t : Fin grid1.N, win1_7.index t = ![q0.val, 0])

set_option maxHeartbeats 4000000 in
/-- What point `t` writes back is its row range of the head of the layer over all rows. -/
theorem flushed_eq (c : Dev nD) (t : Fin cfg1.N) :
    (dat1 V c).flushed 7 t = ((cfg1.win 7).blk t).view.read (Elt Ideal)
      (head (layer (V c main_v48) (V c main_v49) (V c main_v50) (V c main_v51) (fun q => V c main_v52 (ix2 (0 : Fin 1) q)))
        (V c main_v53) (fun q => V c main_v54 (ix2 (0 : Fin 1) q))) := by
  show (cfg1.win 7).cut (grid1.coords t) ((dat1 V c).after 7 t) = _
  rw [after1_7]
  unfold out1_7
  rw [View.canon_unit_zero Region0.zero_off]
  simp only [View.ld_unit_zero (S := S4000x128) Region0.zero_off, View.ld_unit_zero (S := S128x128) Region0.zero_off,
    View.ld_unit_zero (S := S1x128) Region0.zero_off, View.ld_unit_zero (S := S128x40) Region0.zero_off,
    View.ld_unit_zero (S := S1x40) Region0.zero_off]
  obtain ⟨e00, e01, e10, e11, e20, e21, e30, e31, e40, e41, e50, e51, e60, e61, e71, e70⟩ := idx_facts t
  funext j
  obtain ⟨p, q, rfl⟩ : ∃ (p : Fin 4000) (q : Fin 40), j = ix2 p q := ⟨j 0, j 1, eq_ix2 j⟩
  obtain ⟨R, hR⟩ : ∃ R : Fin 100000, R.val = win1_7.index t (0 : Fin 2) * 4000 + p.val :=
    ⟨⟨win1_7.index t (0 : Fin 2) * 4000 + p.val, by have := p.isLt; omega⟩, rfl⟩
  have hemb : ((cfg1.win 7).blk t).view.emb (ix2 p q) = ix2 R q := funext fun a => Fin.ext (by
    match a with
    | ⟨0, _⟩ => show win1_7.index t (0 : Fin 2) * 4000 + 1 * p.val = R.val; omega
    | ⟨1, _⟩ => show win1_7.index t (1 : Fin 2) * 40 + 1 * q.val = q.val; omega)
  show (k1_pay1 (F := Ideal) (iblk1 V c 0 t) (iblk1 V c 2 t) (iblk1 V c 1 t) (iblk1 V c 3 t) (iblk1 V c 4 t) (iblk1 V c 5 t) (iblk1 V c 6 t) (ix2 p q) : EReal)
      = head (layer (V c main_v48) (V c main_v49) (V c main_v50) (V c main_v51) (fun q => V c main_v52 (ix2 (0 : Fin 1) q)))
          (V c main_v53) (fun q => V c main_v54 (ix2 (0 : Fin 1) q)) (((cfg1.win 7).blk t).view.emb (ix2 p q))
  rw [hemb, head_apply]
  refine (pay_at (iblk1 V c 0 t) (iblk1 V c 1 t) (iblk1 V c 2 t) (iblk1 V c 3 t) (iblk1 V c 4 t) (iblk1 V c 5 t) (iblk1 V c 6 t) p q).trans ?_
  have h0 : ∀ k : Fin 128, (iblk1 V c 0 t (ix2 p k) : EReal) = V c main_v48 (ix2 R k) := fun k => by
    show V c main_v48 (((cfg1.win 0).blk t).view.emb (ix2 p k)) = V c main_v48 (ix2 R k)
    refine congrArg (V c main_v48) (funext fun a => Fin.ext ?_)
    match a with
    | ⟨0, _⟩ => show win1_0.index t (0 : Fin 2) * 4000 + 1 * p.val = R.val; omega
    | ⟨1, _⟩ => show win1_0.index t (1 : Fin 2) * 128 + 1 * k.val = k.val; omega
  have h1 : ∀ k : Fin 128, (iblk1 V c 1 t (ix2 p k) : EReal) = V c main_v49 (ix2 R k) := fun k => by
    show V c main_v49 (((cfg1.win 1).blk t).view.emb (ix2 p k)) = V c main_v49 (ix2 R k)
    refine congrArg (V c main_v49) (funext fun a => Fin.ext ?_)
    match a with
    | ⟨0, _⟩ => show win1_1.index t (0 : Fin 2) * 4000 + 1 * p.val = R.val; omega
    | ⟨1, _⟩ => show win1_1.index t (1 : Fin 2) * 128 + 1 * k.val = k.val; omega
  have h2 : ∀ k k' : Fin 128, (iblk1 V c 2 t (ix2 k k') : EReal) = V c main_v50 (ix2 k k') := fun k k' => by
    show V c main_v50 (((cfg1.win 2).blk t).view.emb (ix2 k k')) = V c main_v50 (ix2 k k')
    refine congrArg (V c main_v50) (funext fun a => Fin.ext ?_)
    match a with
    | ⟨0, _⟩ => show win1_2.index t (0 : Fin 2) * 128 + 1 * k.val = k.val; omega
    | ⟨1, _⟩ => show win1_2.index t (1 : Fin 2) * 128 + 1 * k'.val = k'.val; omega
  have h3 : ∀ k k' : Fin 128, (iblk1 V c 3 t (ix2 k k') : EReal) = V c main_v51 (ix2 k k') := fun k k' => by
    show V c main_v51 (((cfg1.win 3).blk t).view.emb (ix2 k k')) = V c main_v51 (ix2 k k')
    refine congrArg (V c main_v51) (funext fun a => Fin.ext ?_)
    match a with
    | ⟨0, _⟩ => show win1_3.index t (0 : Fin 2) * 128 + 1 * k.val = k.val; omega
    | ⟨1, _⟩ => show win1_3.index t (1 : Fin 2) * 128 + 1 * k'.val = k'.val; omega
  have h4 : ∀ k : Fin 128, (iblk1 V c 4 t (ix2 (0 : Fin 1) k) : EReal) = V c main_v52 (ix2 (0 : Fin 1) k) := fun k => by
    show V c main_v52 (((cfg1.win 4).blk t).view.emb (ix2 (0 : Fin 1) k)) = V c main_v52 (ix2 (0 : Fin 1) k)
    refine congrArg (V c main_v52) (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  have h5 : ∀ k : Fin 128, (iblk1 V c 5 t (ix2 k q) : EReal) = V c main_v53 (ix2 k q) := fun k => by
    show V c main_v53 (((cfg1.win 5).blk t).view.emb (ix2 k q)) = V c main_v53 (ix2 k q)
    refine congrArg (V c main_v53) (funext fun a => Fin.ext ?_)
    match a with
    | ⟨0, _⟩ => show win1_5.index t (0 : Fin 2) * 128 + 1 * k.val = k.val; omega
    | ⟨1, _⟩ => show win1_5.index t (1 : Fin 2) * 40 + 1 * q.val = q.val; omega
  have h6 : (iblk1 V c 6 t (ix2 (0 : Fin 1) q) : EReal) = V c main_v54 (ix2 (0 : Fin 1) q) := by
    show V c main_v54 (((cfg1.win 6).blk t).view.emb (ix2 (0 : Fin 1) q)) = V c main_v54 (ix2 (0 : Fin 1) q)
    refine congrArg (V c main_v54) (funext fun a => Fin.ext ?_)
    match a with
    | ⟨0, _⟩ => show win1_6.index t (0 : Fin 2) * 1 + 1 * 0 = 0; omega
    | ⟨1, _⟩ => show win1_6.index t (1 : Fin 2) * 40 + 1 * q.val = q.val; omega
  unfold headAt
  simp only [layer_apply]
  unfold layerAt
  simp only [h0, h1, h2, h3, h4, h5, h6]

/-- An index of the output array lies in point `t`'s block iff each coordinate is in the block's range. -/
theorem mem_blk (t : Fin cfg1.N) (i : S100000x40.Idx) :
    i ∈ ((cfg1.win 7).blk t).view.set ↔ ∀ a : Fin 2, win1_7.index t a * S4000x40.size a ≤ (i a).val ∧ (i a).val < win1_7.index t a * S4000x40.size a + S4000x40.size a := by
  show i ∈ ((View.whole main_v55).slice (win1_7.rect t)).set ↔ _
  rw [View.set_slice_whole, Rect.mem_set_unit]
  exact Iff.rfl

/-- The 25 output blocks cover all 100000 rows. -/
theorem covered (i : S100000x40.Idx) :
    ∃ t : Fin cfg1.N, (cfg1.win 7).flush t = true ∧ i ∈ ((cfg1.win 7).blk t).view.set := by
  have hi0 : (i 0).val < 100000 := (i 0).isLt
  have hi1 : (i 1).val < 40 := (i 1).isLt
  obtain ⟨t, ht⟩ := idx_onto ⟨(i 0).val / 4000, by omega⟩
  have q0 : win1_7.index t (0 : Fin 2) = (i 0).val / 4000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 40 ≤ (i 1).val ∧ (i 1).val < win1_7.index t (1 : Fin 2) * 40 + 40; omega

/-- When the region ends its output array holds the head of the layer of its input arrays, all 100000 rows of it. -/
theorem value (c : Dev nD) :
    (dat1 V c).arrAt 7 cfg1.N
      = head (layer (V c main_v48) (V c main_v49) (V c main_v50) (V c main_v51) (fun q => V c main_v52 (ix2 (0 : Fin 1) q)))
          (V c main_v53) (fun q => V c main_v54 (ix2 (0 : Fin 1) q)) :=
  (dat1 V c).arrAt_eq_of_cover 7 _ (fun t _ => flushed_eq V c t) covered

end Cert.KernelIdeal.Region1

end
-- ==== Proof.KHost.lean ====
/- The host side of the kernel's program: what the arrays hold at the two regions' entries, and the result.

   Before the first region the host computes the neighbour means of the input features (kept here as ONE function,
   `aggOf`, of a feature matrix, the edge sources and the edge targets, never opened) and narrows the features, the
   means and the two weight matrices; a narrowing changes no value over the extended reals. Between the regions it
   computes the neighbour means of the first region's output with the same sources and targets, and narrows again.
   With the two regions' output arrays read as the layer and as the head of the layer, the result array is
   head (layer H (agg H) W5 W6 b7) W8 b9 with H = layer x (agg x) W2 W3 b4. -/
import proofs.«170081_j52123723104477_1_alg».proof.Proof.KRegion0
import proofs.«170081_j52123723104477_1_alg».proof.Proof.KRegion1
import Idealize.ShloMosaic.Lib.StableHlo.Run

set_option maxRecDepth 16384

noncomputable section

open scoped BigOperators

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx Cert.Sage

/-- The edge sources: row 0 of the edge list. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edge targets: row 1 of the edge list. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The mean over each node's in-neighbours of the rows of `h`: the rows of `h` gathered at the sources (a negative
    source counted from the end) and added up at their targets, divided by the number of edges into the node, that
    number clamped below at one. -/
def aggOf (h : (⟨S100000x128, .f32⟩ : BufTy).Contents (Elt Ideal)) (s d : (⟨S1600000, .i32⟩ : BufTy).Contents (Elt Ideal)) :
    (⟨S100000x128, .f32⟩ : BufTy).Contents (Elt Ideal) :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32)))
            s))))
    (broadcastInDim S100000x128 ![0, 1] bcast_S100000x1_S100000x128_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 d)
            (broadcastInDim S1600000 ![] bcast_S_S1600000 (constant (F := Ideal) S_ .f32 0x3F800000#32)))
          (broadcastInDim S100000 ![] bcast_S_S100000 (constant (F := Ideal) S_ .f32 0x3F800000#32)))))

variable (m : (ℓ : Loc nD τ sig) → Buf (Elt Ideal) ℓ) (ρ : Dev nD → PrngReg)

/-- Narrowing a float array to the shorter format changes no entry over the extended reals. -/
theorem trunc_f32 {S : Shape} (x : FVec Ideal S .f32) (h : FTy.bf16.bits < FTy.f32.bits) :
    (truncf (F := Ideal) .bf16 x h : S.Idx → EReal) = x := rfl

/-! ## The first region's operands, from the launch memory -/

theorem V1_v23 (c : Dev nD) :
    V1 m ρ c main_v23 = truncf (F := Ideal) .bf16 (m ((c : Thread nD τ).loc main_arg0)) bitsLt_bf16_f32 := by
  show StableHlo.after hostOps0 (W0 m ρ c) (Proc.devRef .tc main_v23) = _
  after_results_simp

set_option maxHeartbeats 4000000 in
theorem V1_v24 (c : Dev nD) :
    V1 m ρ c main_v24 = truncf (F := Ideal) .bf16 (aggOf (m ((c : Thread nD τ).loc main_arg0))
      (srcOf (m ((c : Thread nD τ).loc main_arg1))) (dstOf (m ((c : Thread nD τ).loc main_arg1)))) bitsLt_bf16_f32 := by
  show StableHlo.after hostOps0 (W0 m ρ c) (Proc.devRef .tc main_v24) = _
  after_results_simp
  rfl

theorem V1_v25 (c : Dev nD) :
    V1 m ρ c main_v25 = truncf (F := Ideal) .bf16 (m ((c : Thread nD τ).loc main_arg2)) bitsLt_bf16_f32 := by
  show StableHlo.after hostOps0 (W0 m ρ c) (Proc.devRef .tc main_v25) = _
  after_results_simp

theorem V1_v26 (c : Dev nD) :
    V1 m ρ c main_v26 = truncf (F := Ideal) .bf16 (m ((c : Thread nD τ).loc main_arg3)) bitsLt_bf16_f32 := by
  show StableHlo.after hostOps0 (W0 m ρ c) (Proc.devRef .tc main_v26) = _
  after_results_simp

theorem V1_v27 (c : Dev nD) :
    V1 m ρ c main_v27 = shapeCast S1x128 (m ((c : Thread nD τ).loc main_arg4)) shapeCasts_S128_S1x128 := by
  show StableHlo.after hostOps0 (W0 m ρ c) (Proc.devRef .tc main_v27) = _
  after_results_simp
  rfl

/-- The same four operands with the narrowing dropped. -/
theorem X1_v23 (c : Dev nD) : (V1 m ρ c main_v23 : S100000x128.Idx → EReal) = m ((c : Thread nD τ).loc main_arg0) :=
  (V1_v23 m ρ c).trans (trunc_f32 _ _)
theorem X1_v24 (c : Dev nD) : (V1 m ρ c main_v24 : S100000x128.Idx → EReal) = aggOf (m ((c : Thread nD τ).loc main_arg0))
      (srcOf (m ((c : Thread nD τ).loc main_arg1))) (dstOf (m ((c : Thread nD τ).loc main_arg1))) :=
  (V1_v24 m ρ c).trans (trunc_f32 _ _)
theorem X1_v25 (c : Dev nD) : (V1 m ρ c main_v25 : S128x128.Idx → EReal) = m ((c : Thread nD τ).loc main_arg2) :=
  (V1_v25 m ρ c).trans (trunc_f32 _ _)
theorem X1_v26 (c : Dev nD) : (V1 m ρ c main_v26 : S128x128.Idx → EReal) = m ((c : Thread nD τ).loc main_arg3) :=
  (V1_v26 m ρ c).trans (trunc_f32 _ _)

/-- A vector of 128 entries recast as a 1 x 128 matrix, at entry (0, q), is the vector at q. -/
theorem row128_at (b : (⟨S128, .f32⟩ : BufTy).Contents (Elt Ideal)) (q : Fin 128) :
    shapeCast S1x128 b shapeCasts_S128_S1x128 (ix2 (0 : Fin 1) q) = b (ix1 q) :=
  (shapeCast_addUnit_apply ![128] b shapeCasts_S128_S1x128 (ix2 (0 : Fin 1) q)).trans
    (congrArg b (funext fun a => match a with | ⟨0, _⟩ => rfl))

/-- A vector of 40 entries recast as a 1 x 40 matrix, at entry (0, q), is the vector at q. -/
theorem row40_at (b : (⟨S40, .f32⟩ : BufTy).Contents (Elt Ideal)) (q : Fin 40) :
    shapeCast S1x40 b shapeCasts_S40_S1x40 (ix2 (0 : Fin 1) q) = b (ix1 q) :=
  (shapeCast_addUnit_apply ![40] b shapeCasts_S40_S1x40 (ix2 (0 : Fin 1) q)).trans
    (congrArg b (funext fun a => match a with | ⟨0, _⟩ => rfl))

/-- The first layer's output over all rows, from the launch memory. -/
def hidden (c : Dev nD) : Mat 100000 128 :=
  layer (m ((c : Thread nD τ).loc main_arg0))
    (aggOf (m ((c : Thread nD τ).loc main_arg0)) (srcOf (m ((c : Thread nD τ).loc main_arg1))) (dstOf (m ((c : Thread nD τ).loc main_arg1))))
    (m ((c : Thread nD τ).loc main_arg2)) (m ((c : Thread nD τ).loc main_arg3)) (fun q => m ((c : Thread nD τ).loc main_arg4) (ix1 q))

/-- After the first region its output array holds the first layer's output. -/
theorem W2_v28 (c : Dev nD) : W2 m ρ c (Proc.devRef .tc main_v28) = hidden m c := by
  refine ((W2_arr m ρ c 5).trans (Region0.value (V1 m ρ) c)).trans ?_
  rw [X1_v23, X1_v24, X1_v25, X1_v26]
  have hb : (fun q : Fin 128 => (V1 m ρ c main_v27 (ix2 (0 : Fin 1) q) : EReal)) = fun q => m ((c : Thread nD τ).loc main_arg4) (ix1 q) := by
    funext q
    rw [V1_v27]
    exact row128_at _ q
  rw [hb]
  rfl

/-! ## The second region's operands, from the first region's exit -/

theorem W2_v1 (c : Dev nD) : W2 m ρ c (Proc.devRef .tc main_v1) = srcOf (m ((c : Thread nD τ).loc main_arg1)) := by
  refine (W2_of_ne m ρ c main_v1 (by decide)).trans ?_
  show StableHlo.after hostOps0 (W0 m ρ c) (Proc.devRef .tc main_v1) = _
  after_results_simp
  rfl

theorem W2_v3 (c : Dev nD) : W2 m ρ c (Proc.devRef .tc main_v3) = dstOf (m ((c : Thread nD τ).loc main_arg1)) := by
  refine (W2_of_ne m ρ c main_v3 (by decide)).trans ?_
  show StableHlo.after hostOps0 (W0 m ρ c) (Proc.devRef .tc main_v3) = _
  after_results_simp
  rfl

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp

theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp

theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results_simp

theorem V3_v48 (c : Dev nD) :
    V3 m ρ c main_v48 = truncf (F := Ideal) .bf16 (W2 m ρ c (Proc.devRef .tc main_v28)) bitsLt_bf16_f32 := by
  show StableHlo.after hostOps1 (W2 m ρ c) (Proc.devRef .tc main_v48) = _
  after_results_simp

set_option maxHeartbeats 4000000 in
theorem V3_v49 (c : Dev nD) :
    V3 m ρ c main_v49 = truncf (F := Ideal) .bf16 (aggOf (W2 m ρ c (Proc.devRef .tc main_v28))
      (W2 m ρ c (Proc.devRef .tc main_v1)) (W2 m ρ c (Proc.devRef .tc main_v3))) bitsLt_bf16_f32 := by
  show StableHlo.after hostOps1 (W2 m ρ c) (Proc.devRef .tc main_v49) = _
  after_results_simp
  rfl

theorem V3_v50 (c : Dev nD) :
    V3 m ρ c main_v50 = truncf (F := Ideal) .bf16 (W2 m ρ c (Proc.devRef .tc main_arg5)) bitsLt_bf16_f32 := by
  show StableHlo.after hostOps1 (W2 m ρ c) (Proc.devRef .tc main_v50) = _
  after_results_simp

theorem V3_v51 (c : Dev nD) :
    V3 m ρ c main_v51 = truncf (F := Ideal) .bf16 (W2 m ρ c (Proc.devRef .tc main_arg6)) bitsLt_bf16_f32 := by
  show StableHlo.after hostOps1 (W2 m ρ c) (Proc.devRef .tc main_v51) = _
  after_results_simp

theorem V3_v52 (c : Dev nD) :
    V3 m ρ c main_v52 = shapeCast S1x128 (W2 m ρ c (Proc.devRef .tc main_arg7)) shapeCasts_S128_S1x128 := by
  show StableHlo.after hostOps1 (W2 m ρ c) (Proc.devRef .tc main_v52) = _
  after_results_simp
  rfl

theorem V3_v53 (c : Dev nD) :
    V3 m ρ c main_v53 = truncf (F := Ideal) .bf16 (W2 m ρ c (Proc.devRef .tc main_arg8)) bitsLt_bf16_f32 := by
  show StableHlo.after hostOps1 (W2 m ρ c) (Proc.devRef .tc main_v53) = _
  after_results_simp

theorem V3_v54 (c : Dev nD) :
    V3 m ρ c main_v54 = shapeCast S1x40 (W2 m ρ c (Proc.devRef .tc main_arg9)) shapeCasts_S40_S1x40 := by
  show StableHlo.after hostOps1 (W2 m ρ c) (Proc.devRef .tc main_v54) = _
  after_results_simp
  rfl

/-- The second region's narrowed operands with the narrowing dropped, read back to the launch memory. -/
theorem X3_v48 (c : Dev nD) : (V3 m ρ c main_v48 : S100000x128.Idx → EReal) = hidden m c :=
  ((V3_v48 m ρ c).trans (trunc_f32 _ _)).trans (W2_v28 m ρ c)
theorem X3_v49 (c : Dev nD) : (V3 m ρ c main_v49 : S100000x128.Idx → EReal)
    = aggOf (hidden m c) (srcOf (m ((c : Thread nD τ).loc main_arg1))) (dstOf (m ((c : Thread nD τ).loc main_arg1))) := by
  refine ((V3_v49 m ρ c).trans (trunc_f32 _ _)).trans ?_
  rw [W2_v28, W2_v1, W2_v3]
theorem X3_v50 (c : Dev nD) : (V3 m ρ c main_v50 : S128x128.Idx → EReal) = m ((c : Thread nD τ).loc main_arg5) :=
  ((V3_v50 m ρ c).trans (trunc_f32 _ _)).trans (W2_arg5 m ρ c)
theorem X3_v51 (c : Dev nD) : (V3 m ρ c main_v51 : S128x128.Idx → EReal) = m ((c : Thread nD τ).loc main_arg6) :=
  ((V3_v51 m ρ c).trans (trunc_f32 _ _)).trans (W2_arg6 m ρ c)
theorem X3_v53 (c : Dev nD) : (V3 m ρ c main_v53 : S128x40.Idx → EReal) = m ((c : Thread nD τ).loc main_arg8) :=
  ((V3_v53 m ρ c).trans (trunc_f32 _ _)).trans (W2_arg8 m ρ c)

/-- THE RESULT ARRAY when the program ends: the head of the second layer, the second layer over the first layer's
    output and its neighbour means. -/
theorem result (c : Dev nD) :
    W4 m ρ c (Proc.devRef .tc main_v55)
      = head (layer (hidden m c)
            (aggOf (hidden m c) (srcOf (m ((c : Thread nD τ).loc main_arg1))) (dstOf (m ((c : Thread nD τ).loc main_arg1))))
            (m ((c : Thread nD τ).loc main_arg5)) (m ((c : Thread nD τ).loc main_arg6)) (fun q => m ((c : Thread nD τ).loc main_arg7) (ix1 q)))
          (m ((c : Thread nD τ).loc main_arg8)) (fun q => m ((c : Thread nD τ).loc main_arg9) (ix1 q)) := by
  refine ((W4_arr m ρ c 7).trans (Region1.value (V3 m ρ) c)).trans ?_
  have hb7 : (fun q : Fin 128 => (V3 m ρ c main_v52 (ix2 (0 : Fin 1) q) : EReal)) = fun q => m ((c : Thread nD τ).loc main_arg7) (ix1 q) := by
    funext q
    rw [V3_v52, W2_arg7]
    exact row128_at _ q
  have hb9 : (fun q : Fin 40 => (V3 m ρ c main_v54 (ix2 (0 : Fin 1) q) : EReal)) = fun q => m ((c : Thread nD τ).loc main_arg9) (ix1 q) := by
    funext q
    rw [V3_v54, W2_arg9]
    exact row40_at _ q
  rw [hb7, hb9, X3_v48, X3_v49, X3_v50, X3_v51, X3_v53]

end Cert.KernelIdeal.HostValue

end
-- ==== Proof.RefSide.lean ====
/- The reference program's result, entry by entry.

   The reference applies one graph layer twice and then the classifier head. Its neighbour mean (a gather along the
   edge sources, a scatter-add along the edge targets, a division by the clamped in-degree) is kept as ONE function
   `agg` of a feature matrix and the edge list and is never opened: the kernel's program applies the same chain.
   Read entry by entry, a layer is max (X Ws + Xn Wn + b) 0 with the two products as sums over the 128 hidden
   coordinates, and the head is H Wc + bc. -/
import proofs.«170081_j52123723104477_1_alg».proof.Defs
import proofs.«170081_j52123723104477_1_alg».proof.Proof.Gen.ReferenceIdeal.Run
import proofs.«170081_j52123723104477_1_alg».proof.Proof.Gen.ReferenceIdeal.Read
import proofs.«170081_j52123723104477_1_alg».proof.Proof.SageSpec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx Cert.Sage

/-- A feature matrix, 100000 nodes by 128 channels. -/
abbrev FM : Type := (⟨S100000x128, .f32⟩ : BufTy).Contents (Elt Ideal)
/-- The edge list: row 0 the sources, row 1 the targets. -/
abbrev EI : Type := (⟨S2x1600000, .i32⟩ : BufTy).Contents (Elt Ideal)
/-- A 128 x 128 weight matrix. -/
abbrev WM : Type := (⟨S128x128, .f32⟩ : BufTy).Contents (Elt Ideal)
/-- A bias of 128 entries. -/
abbrev BV : Type := (⟨S128, .f32⟩ : BufTy).Contents (Elt Ideal)

/-- The mean over each node's in-neighbours of the rows of `h`: the sums of the gathered source rows at their
    targets, divided by the in-degree clamped below at one. -/
def agg (h : FM) (e : EI) : FM := val_main_v22 (F := Ideal) h e

/-- The edge sources: row 0 of the edge list. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edge targets: row 1 of the edge list. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The mean over each node's in-neighbours of the rows of `h`: the rows of `h` gathered at the sources (a negative
    source counted from the end) and added up at their targets, divided by the number of edges into the node, that
    number clamped below at one. -/
def aggOf (h : (⟨S100000x128, .f32⟩ : BufTy).Contents (Elt Ideal)) (s d : (⟨S1600000, .i32⟩ : BufTy).Contents (Elt Ideal)) :
    (⟨S100000x128, .f32⟩ : BufTy).Contents (Elt Ideal) :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32)))
            s))))
    (broadcastInDim S100000x128 ![0, 1] bcast_S100000x1_S100000x128_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 d)
            (broadcastInDim S1600000 ![] bcast_S_S1600000 (constant (F := Ideal) S_ .f32 0x3F800000#32)))
          (broadcastInDim S100000 ![] bcast_S_S100000 (constant (F := Ideal) S_ .f32 0x3F800000#32)))))

/-- The reference's neighbour mean is `aggOf` over the two rows of the edge list. -/
theorem agg_eq (h : FM) (e : EI) : agg h e = aggOf h (srcOf e) (dstOf e) := rfl

/-- One layer as the reference spells it: two products, their sum, the bias on every row, the clamp at zero. -/
def refLayer (X Xn : FM) (W Wn : WM) (b : BV) : FM :=
  maximumf (F := Ideal) (φ := .f32) (addf (F := Ideal) (φ := .f32) (addf (F := Ideal) (φ := .f32) (val_main_v23 (F := Ideal) X W) (val_main_v23 (F := Ideal) Xn Wn)) (val_main_v27 (F := Ideal) b))
    (val_main_call0_v0 (F := Ideal))

theorem lidx_eq (r : Fin 100000) (q k : Fin 128) : lidx_main_v23 (ix2 r q) k = ix2 r k :=
  funext fun a => Fin.ext (by match a with | ⟨0, _⟩ => rfl | ⟨1, _⟩ => rfl)
theorem ridx_eq (r : Fin 100000) (q k : Fin 128) : ridx_main_v23 (ix2 r q) k = ix2 k q :=
  funext fun a => Fin.ext (by match a with | ⟨0, _⟩ => rfl | ⟨1, _⟩ => rfl)
theorem bidx_eq (r : Fin 100000) (q : Fin 128) : idx_main_v26 (idx_main_v27 (ix2 r q)) = ix1 q :=
  funext fun a => Fin.ext (by match a with | ⟨0, _⟩ => rfl)

/-- Entry by entry the reference's layer is max (X Ws + Xn Wn + b) 0. -/
theorem refLayer_eq (X Xn : FM) (W Wn : WM) (b : BV) :
    refLayer X Xn W Wn b = layer X Xn W Wn (fun q => b (ix1 q)) := by
  funext i
  obtain ⟨r, q, rfl⟩ : ∃ (r : Fin 100000) (q : Fin 128), i = ix2 r q := ⟨i 0, i 1, eq_ix2 i⟩
  rw [layer_apply]
  unfold layerAt
  show max ((val_main_v23 (F := Ideal) X W (ix2 r q) + val_main_v23 (F := Ideal) Xn Wn (ix2 r q))
      + val_main_v27 (F := Ideal) b (ix2 r q)) (val_main_call0_v0 (F := Ideal) (ix2 r q)) = _
  rw [val_main_v23_apply, val_main_v23_apply, val_main_v27_apply, val_main_v26_apply, val_main_call0_v0_apply,
    val_main_call0_cst_apply, bidx_eq]
  simp only [lidx_eq, ridx_eq]
  exact congrArg _ Ideal.ofBits_zero_f32

/-- The first layer's output and the second's, as the reference computes them. -/
theorem v29_eq (x0 : FM) (x1 : EI) (x2 x3 : WM) (x4 : BV) :
    val_main_v29 (F := Ideal) x0 x1 x2 x3 x4 = refLayer x0 (agg x0 x1) x2 x3 x4 := rfl

theorem v55_eq (x0 : FM) (x1 : EI) (x2 x3 : WM) (x4 : BV) (x5 x6 : WM) (x7 : BV) :
    val_main_v55 (F := Ideal) x0 x1 x2 x3 x4 x5 x6 x7
      = refLayer (val_main_v29 (F := Ideal) x0 x1 x2 x3 x4) (agg (val_main_v29 (F := Ideal) x0 x1 x2 x3 x4) x1) x5 x6 x7 := rfl

theorem hl_eq (r : Fin 100000) (q : Fin 40) (k : Fin 128) : lidx_main_v56 (ix2 r q) k = ix2 r k :=
  funext fun a => Fin.ext (by match a with | ⟨0, _⟩ => rfl | ⟨1, _⟩ => rfl)
theorem hr_eq (r : Fin 100000) (q : Fin 40) (k : Fin 128) : ridx_main_v56 (ix2 r q) k = ix2 k q :=
  funext fun a => Fin.ext (by match a with | ⟨0, _⟩ => rfl | ⟨1, _⟩ => rfl)
theorem hb_eq (r : Fin 100000) (q : Fin 40) : idx_main_v57 (idx_main_v58 (ix2 r q)) = ix1 q :=
  funext fun a => Fin.ext (by match a with | ⟨0, _⟩ => rfl)

/-- The whole reference: two layers, each over the neighbour means of its input, then the head. -/
theorem result_eq (x0 : FM) (x1 : EI) (x2 x3 : WM) (x4 : BV) (x5 x6 : WM) (x7 : BV)
    (x8 : (⟨S128x40, .f32⟩ : BufTy).Contents (Elt Ideal)) (x9 : (⟨S40, .f32⟩ : BufTy).Contents (Elt Ideal)) :
    val_main_v59 (F := Ideal) x0 x1 x2 x3 x4 x5 x6 x7 x8 x9
      = head (layer (layer x0 (agg x0 x1) x2 x3 (fun q => x4 (ix1 q)))
            (agg (layer x0 (agg x0 x1) x2 x3 (fun q => x4 (ix1 q))) x1) x5 x6 (fun q => x7 (ix1 q)))
          x8 (fun q => x9 (ix1 q)) := by
  funext i
  obtain ⟨r, q, rfl⟩ : ∃ (r : Fin 100000) (q : Fin 40), i = ix2 r q := ⟨i 0, i 1, eq_ix2 i⟩
  rw [head_apply]
  unfold headAt
  rw [val_main_v59_apply, val_main_v56_apply, val_main_v58_apply, val_main_v57_apply, hb_eq]
  simp only [hl_eq, hr_eq]
  rw [v55_eq, v29_eq, refLayer_eq, refLayer_eq]
  rfl

end Cert.ReferenceIdeal.RefValue

end
-- ==== Proof.lean ====
/- The kernel's program and the reference compute the same two-layer graph network.

   Both take the node features, the edge list, two layers' weights and biases and a classifier head. A layer sends
   a feature matrix H to max (H Ws + mean_nbr(H) Wn + b) 0, where mean_nbr averages the rows of H over each node's
   in-neighbours; the head sends H to H Wc + bc. The kernel's program computes the neighbour means on the host with
   the reference's own operations, narrows every operand to a shorter float format (no change of value over the
   extended reals), and runs each layer's products, bias and clamp block by block over 25 ranges of 4000 rows,
   the second time together with the head. Entry by entry both results are the same sums over the 128 hidden
   coordinates, added in the same order, so no law beyond the definitions is needed and the inputs' finiteness
   is not used. The neighbour mean is compared as one function of its three operands and is never opened. -/
import proofs.«170081_j52123723104477_1_alg».proof.Defs
import proofs.«170081_j52123723104477_1_alg».proof.Proof.Gen.Kernel
import proofs.«170081_j52123723104477_1_alg».proof.Proof.Gen.Kernel.Skeleton
import proofs.«170081_j52123723104477_1_alg».proof.Proof.Gen.Kernel.Launch
import proofs.«170081_j52123723104477_1_alg».proof.Proof.Gen.Kernel.Points
import proofs.«170081_j52123723104477_1_alg».proof.Proof.Gen.Kernel.Frame
import proofs.«170081_j52123723104477_1_alg».proof.Proof.Gen.KernelIdeal
import proofs.«170081_j52123723104477_1_alg».proof.Proof.Gen.KernelIdeal.Skeleton
import proofs.«170081_j52123723104477_1_alg».proof.Proof.Gen.KernelIdeal.Launch
import proofs.«170081_j52123723104477_1_alg».proof.Proof.Gen.KernelIdeal.Points
import proofs.«170081_j52123723104477_1_alg».proof.Proof.Gen.KernelIdeal.Frame
import proofs.«170081_j52123723104477_1_alg».proof.Proof.Gen.ReferenceIdeal
import proofs.«170081_j52123723104477_1_alg».proof.Proof.Gen.ReferenceIdeal.Run
import proofs.«170081_j52123723104477_1_alg».proof.Proof.Gen.ReferenceIdeal.Read
import proofs.«170081_j52123723104477_1_alg».proof.Proof.Gen.Pre_finite_inputs
import proofs.«170081_j52123723104477_1_alg».proof.Proof.KernelRun
import proofs.«170081_j52123723104477_1_alg».proof.Proof.KHost
import proofs.«170081_j52123723104477_1_alg».proof.Proof.RefSide
import Idealize.ShloMosaic.Adequacy
import Idealize.ShloMosaic.Init

set_option maxRecDepth 16384

noncomputable section

/-! ## The two programs' neighbour means are one function -/

namespace Cert.Cross

open Idealize.ShloMosaic

/-- The two programs print the same gather and the same two scatter-adds. -/
theorem gather_eq : Cert.KernelIdeal.gather_S100000x128_S1600000x1_S1600000x128_1_0_n_n_0_1_1128
    = Cert.ReferenceIdeal.gather_S100000x128_S1600000x1_S1600000x128_1_0_n_n_0_1_1128 := rfl
theorem scatter2_eq : Cert.KernelIdeal.scatter_S100000x128_S1600000x1_S1600000x128_1_0_0_1
    = Cert.ReferenceIdeal.scatter_S100000x128_S1600000x1_S1600000x128_1_0_0_1 := rfl
theorem scatter1_eq : Cert.KernelIdeal.scatter_S100000_S1600000x1_S1600000_n_0_0_1
    = Cert.ReferenceIdeal.scatter_S100000_S1600000x1_S1600000_n_0_0_1 := rfl

theorem src_eq (e) : Cert.KernelIdeal.HostValue.srcOf e = Cert.ReferenceIdeal.RefValue.srcOf e := rfl
theorem dst_eq (e) : Cert.KernelIdeal.HostValue.dstOf e = Cert.ReferenceIdeal.RefValue.dstOf e := rfl

/-- The neighbour mean of the kernel's program is the reference's. -/
theorem agg_eq (h s d) : Cert.KernelIdeal.HostValue.aggOf h s d = Cert.ReferenceIdeal.RefValue.aggOf h s d := by
  unfold Cert.KernelIdeal.HostValue.aggOf Cert.ReferenceIdeal.RefValue.aggOf
  rw [gather_eq, scatter2_eq, scatter1_eq]

end Cert.Cross

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the ten arguments both programs end with the same result array. -/
theorem algebraic : Cert.algebraic_KernelIdeal_ReferenceIdeal := by
  intro m ρ m' ρ' _ hagree
  refine ⟨fun c => Cert.KernelIdeal.Gen.W4 m ρ c (Proc.devRef .tc Cert.KernelIdeal.main_v55),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v59_eq m' c).trans ?_
  refine (Cert.ReferenceIdeal.RefValue.result_eq _ _ _ _ _ _ _ _ _ _).trans ?_
  refine Eq.trans ?_ (Cert.KernelIdeal.HostValue.result m ρ c).symm
  obtain ⟨a0, a1, a2, a3, a4, a5, a6, a7, a8, a9⟩ := hagree c
  rw [a0, a1, a2, a3, a4, a5, a6, a7, a8, a9]
  unfold Cert.KernelIdeal.HostValue.hidden
  simp only [Cert.ReferenceIdeal.RefValue.agg_eq, Cert.Cross.agg_eq, Cert.Cross.src_eq, Cert.Cross.dst_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
